-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S16x256 : Shape := ⟨2, ![16, 256]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg2 : IVec S640000 32) (main_v13 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v13 main_v16
  let main_c_6 : IVec S_ 32 := constantI S_ 32 0#32
  let main_v18 : IVec S640000 32 := broadcastInDim S640000 ![] bcast_S_S640000 main_c_6
  let main_v19 : IVec S640000 1 := cmpi .sge main_arg2 main_v18
  let main_c_7 : IVec S_ 1 := constantI S_ 1 1#1
  let main_v20 : IVec S_ 1 := (fun x v => Host.reduce IntOp.andi x v reducesTo_S640000_S_d0 h_S_) main_v19 main_c_7
  let main_v21 : IVec S_ 1 := andi main_v17 main_v20
  main_v21

def fn {F : FTy → Type} [FloatOps F] (main_arg0 : FVec F S100000x128 .f32) (main_arg1 : IVec S640000 32) (main_arg2 : IVec S640000 32) (main_arg3 : FVec F S16x256 .f32) (main_arg4 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S16x256 .f32 := Host.absf main_arg3
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg1 main_v14
  let main_c_5 : IVec S_ 1 := constantI S_ 1 1#1
  fn_part1 (F := F) main_arg2 main_v13 main_v15 main_c_5
-- ==== Kernel.lean ====
abbrev S100000x128 : Shape := ⟨2, ![100000, 128]⟩
abbrev S640000 : Shape := ⟨1, ![640000]⟩
abbrev S16x256 : Shape := ⟨2, ![16, 256]⟩
abbrev S16 : Shape := ⟨1, ![16]⟩
abbrev S16x128 : Shape := ⟨2, ![16, 128]⟩
abbrev S128x16 : Shape := ⟨2, ![128, 16]⟩
abbrev S128x32 : Shape := ⟨2, ![128, 32]⟩
abbrev S100000x32 : Shape := ⟨2, ![100000, 32]⟩
abbrev S10000x128 : Shape := ⟨2, ![10000, 128]⟩
abbrev S10000x32 : Shape := ⟨2, ![10000, 32]⟩
abbrev S100000x16 : Shape := ⟨2, ![100000, 16]⟩
abbrev S640000x1 : Shape := ⟨2, ![640000, 1]⟩
abbrev S640000x16 : Shape := ⟨2, ![640000, 16]⟩
abbrev S1x16 : Shape := ⟨2, ![1, 16]⟩

abbrev nBuf : Space → Nat
  | .hbm => 24
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S16x256, .f32⟩
  | .hbm, ⟨4, _⟩ => ⟨S16, .f32⟩
  | .hbm, ⟨5, _⟩ => ⟨S16x128, .f32⟩
  | .hbm, ⟨6, _⟩ => ⟨S16x128, .f32⟩
  | .hbm, ⟨7, _⟩ => ⟨S128x16, .f32⟩
  | .hbm, ⟨8, _⟩ => ⟨S128x16, .f32⟩
  | .hbm, ⟨9, _⟩ => ⟨S128x32, .f32⟩
  | .hbm, ⟨10, _⟩ => ⟨S128x32, .bf16⟩
  | .hbm, ⟨11, _⟩ => ⟨S100000x32, .bf16⟩
  | .hbm, ⟨12, _⟩ => ⟨S100000x16, .bf16⟩
  | .hbm, ⟨13, _⟩ => ⟨S100000x16, .bf16⟩
  | .hbm, ⟨14, _⟩ => ⟨S640000x1, .i32⟩
  | .hbm, ⟨15, _⟩ => ⟨S640000x16, .bf16⟩
  | .hbm, ⟨16, _⟩ => ⟨S640000x1, .i32⟩
  | .hbm, ⟨17, _⟩ => ⟨S640000x16, .bf16⟩
  | .hbm, ⟨18, _⟩ => ⟨S640000x16, .f32⟩
  | .hbm, ⟨19, _⟩ => ⟨S640000x16, .f32⟩
  | .hbm, ⟨20, _⟩ => ⟨S640000x16, .f32⟩
  | .hbm, ⟨21, _⟩ => ⟨S1x16, .f32⟩
  | .hbm, ⟨22, _⟩ => ⟨S640000x16, .f32⟩
  | .hbm, ⟨23, _⟩ => ⟨S640000x16, .f32⟩
  | .local _ .vmem, ⟨0, _⟩ => ⟨S10000x128, .f32⟩
  | .local _ .vmem, ⟨1, _⟩ => ⟨S10000x128, .f32⟩
  | .local _ .vmem, ⟨2, _⟩ => ⟨S128x32, .bf16⟩
  | .local _ .vmem, ⟨3, _⟩ => ⟨S10000x32, .bf16⟩
  | .local _ .vmem, ⟨4, _⟩ => ⟨S10000x32, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_v9 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16x256_S16x128_0_0 : S16x256.Slices ![0, 0] S16x128
  slices_S16x256_S16x128_0_128 : S16x256.Slices ![0, 128] S16x128
  transposes_S16x128_S128x16_1_0 : S16x128.Transposes [1, 0] S128x16
  concatenates_S128x16_S128x16_S128x32_d1 : Shape.Concatenates [S128x16, S128x16] S128x32 1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  slices_S100000x32_S100000x16_0_0 : S100000x32.Slices ![0, 0] S100000x16
  slices_S100000x32_S100000x16_0_16 : S100000x32.Slices ![0, 16] S100000x16
  bcast_S640000_S640000x1_0 : S640000.BroadcastsInDim S640000x1 (![0] : Fin 1 → Fin S640000x1.rank)
  bcast_S16_S1x16_1 : S16.BroadcastsInDim S1x16 (![1] : Fin 1 → Fin S1x16.rank)
  bcast_S1x16_S640000x16_0_1 : S1x16.BroadcastsInDim S640000x16 (![0, 1] : Fin 2 → Fin S640000x16.rank)
  dot_S10000x128_S128x32_S10000x32_1_0_0_1_n_n_wf : DotDims.WF S10000x128 S128x32 S10000x32 [1] [0] [0] [1] [] []
  gather_S100000x16_S640000x1_S640000x16_1_0_n_n_0_1_116_wf : GatherDims.WF S100000x16 S640000x1 S640000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .bf16 = 32 ∨ (Rect.block (s := S128x32) S128x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .bf16 = 32 ∨ (Rect.block (s := S100000x32) S10000x32.size (cc0_transform_2 i) (hinb0_2 i)).WholeWords (EltTy.packing .bf16)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x16_S640000x1_S640000x16_1_0_n_n_0_1_116 : GatherDims S100000x16 S640000x1 S640000x16 where
  offsetDims := [1]
  collapsedSliceDims := [0]
  operandBatchingDims := []
  startIndicesBatchingDims := []
  startIndexMap := [0]
  indexVectorDim := 1
  sliceSizes := ![1, 16]
  wf := gather_S100000x16_S640000x1_S640000x16_1_0_n_n_0_1_116_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S16x256 : Shape := ⟨2, ![16, 256]⟩
abbrev S16 : Shape := ⟨1, ![16]⟩
abbrev S_ : Shape := ⟨0, ![]⟩
abbrev S640000x1 : Shape := ⟨2, ![640000, 1]⟩
abbrev S640000x128 : Shape := ⟨2, ![640000, 128]⟩
abbrev S16x128 : Shape := ⟨2, ![16, 128]⟩
abbrev S640000x16 : Shape := ⟨2, ![640000, 16]⟩
abbrev S1x16 : Shape := ⟨2, ![1, 16]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S16x256, .f32⟩
  | .hbm, ⟨4, _⟩ => ⟨S16, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S16x128, .f32⟩
  | .hbm, ⟨24, _⟩ => ⟨S16x128, .f32⟩
  | .hbm, ⟨25, _⟩ => ⟨S640000x16, .f32⟩
  | .hbm, ⟨26, _⟩ => ⟨S640000x16, .f32⟩
  | .hbm, ⟨27, _⟩ => ⟨S640000x16, .f32⟩
  | .hbm, ⟨28, _⟩ => ⟨S1x16, .f32⟩
  | .hbm, ⟨29, _⟩ => ⟨S640000x16, .f32⟩
  | .hbm, ⟨30, _⟩ => ⟨S640000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  slices_S16x256_S16x128_0_0 : S16x256.Slices ![0, 0] S16x128
  slices_S16x256_S16x128_0_128 : S16x256.Slices ![0, 128] S16x128
  bcast_S16_S1x16_1 : S16.BroadcastsInDim S1x16 (![1] : Fin 1 → Fin S1x16.rank)
  bcast_S1x16_S640000x16_0_1 : S1x16.BroadcastsInDim S640000x16 (![0, 1] : Fin 2 → Fin S640000x16.rank)
  gather_S100000x128_S640000x1_S640000x128_1_0_n_n_0_1_1128_wf : GatherDims.WF S100000x128 S640000x1 S640000x128 [1] [0] [] [0] [] 1 ![1, 128]
  dot_S640000x128_S16x128_S640000x16_1_1_0_0_n_n_wf : DotDims.WF S640000x128 S16x128 S640000x16 [1] [1] [0] [0] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S16x128_S640000x16_1_1_0_0_n_n : DotDims S640000x128 S16x128 S640000x16 where
  lhsContracting := [1]
  rhsContracting := [1]
  lhsNonContracting := [0]
  rhsNonContracting := [0]
  lhsBatch := []
  rhsBatch := []
  wf := dot_S640000x128_S16x128_S640000x16_1_1_0_0_n_n_wf

class Facts : Prop extends Facts₀ where

variable [Facts]
-- ==== Proof.Domain.lean ====
/-
  What the precondition says of the two index arrays: every source and every destination node number is, read as
  a signed integer, at least zero. The printed precondition is a conjunction of five `jnp.all`s; the last two are
  `all (src ≥ 0)` and `all (dst ≥ 0)`, each a reduction by `and` of a signed comparison against the zero splat.
-/
import proofs.«416451_j89953795047574_3_alg».proof.Pre_finite_inputs
import Idealize.ShloMosaic.Lib.ReduceAll
import Idealize.ShloMosaic.Lib.ValueIdx

noncomputable section

namespace Cert.EdgeScore

open Idealize.ShloMosaic Cert.Pre_finite_inputs

variable {F : FTy → Type} [FloatOps F] [Cert.Pre_finite_inputs.Facts]

/-- Under the precondition every word of `src` and of `dst` compares `≥ 0`, signed. -/
theorem nonneg_of_pre (x0 : FVec F S100000x128 .f32) (x1 x2 : IVec S640000 32) (x3 : FVec F S16x256 .f32)
    (x4 : FVec F S16 .f32) (h : Cert.Pre_finite_inputs.fn (F := F) x0 x1 x2 x3 x4 = fun _ => 1#1) :
    (∀ e : S640000.Idx, IntOp.cmpi .sge (x1 e) 0#32 = 1#1) ∧ (∀ e : S640000.Idx, IntOp.cmpi .sge (x2 e) 0#32 = 1#1) := by
  have h0 := congrFun h ValueIdx.ix0
  dsimp only [Cert.Pre_finite_inputs.fn, Cert.Pre_finite_inputs.fn_part1] at h0
  have h0' : IntOp.andi _ _ = 1#1 := h0
  obtain ⟨h01, hdst⟩ := IntOp.andi_eq_one.1 h0'
  have h01' : IntOp.andi _ _ = 1#1 := h01
  obtain ⟨_, hsrc⟩ := IntOp.andi_eq_one.1 h01'
  haveI : Subsingleton S_.Idx := ⟨fun a b => funext fun d => d.elim0⟩
  exact ⟨fun e => Host.reduce_andi_all _ _ _ _ _ hsrc e, fun e => Host.reduce_andi_all _ _ _ _ _ hdst e⟩

end Cert.EdgeScore

end
-- ==== Proof.LibRowGather.lean ====
/-
  A row gather read at an index. `table[idx]` over a rank-2 table [N, D] at a vector of n row numbers prints as a
  `stablehlo.gather` whose start indices are the [n, 1] column of row numbers, whose operand axis 0 is collapsed and
  start-indexed, whose operand axis 1 is the one offset axis, and whose slices are whole rows [1, D]. Result element (p, q)
  is the table at (row, q), the row being position p's start index read as a signed integer and clamped into [0, N − 1].
-/
import Idealize.ShloMosaic.PureOps.ShapeOps
import Idealize.ShloMosaic.Lib.ValueIdx

namespace Idealize.ShloMosaic.RowGather

open Idealize.ShloMosaic Idealize.ShloMosaic.ValueIdx

/-- A rank-2 index read on an axis whose number is 0 is its first coordinate. -/
theorem ix2_val_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_one {n0 n1 : Nat} (a : Fin n0) (b : Fin n1) (i : Fin 2) (hi : i.val = 1) : (ix2 a b i).val = b.val := by
  match i, hi with
  | ⟨1, _⟩, _ => rfl

/-- A start index read as a signed integer and clamped into a table of `N` rows: the row a gather reads. -/
def clampRow (N : Nat) (hN : 0 < N) {w : Nat} (i : BitVec w) : Fin N := ⟨min i.toInt.toNat (N - 1), by omega⟩

/-- THE ROW GATHER AT (p, q): the table at (the clamped start row of position p, q). The five hypotheses are the printed
    dimension numbers, each by `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  -- the result's batch axes are all axis 0, its offset axes all axis 1
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.EdgeScore.lean ====
/-
  The edge score, as ONE function of the five argument arrays.

  `h` is the node table [100000, 128], `src` and `dst` give one node number per edge (640000 edges), `W` is the
  weight [16, 256] read as two halves [16, 128] side by side, `b` the bias [16]. For edge `e` and output `o`

      score[e, o] = Σ_k h[row(src e), k] · W[o, k]  +  Σ_k h[row(dst e), k] · W[o, 128 + k]  +  b[o],

  where `row(i)` is the node number read as a signed integer and clamped into [0, 99999]: what a row gather reads.
  Both programs compute this. The reference gathers the 128-wide rows first and contracts afterwards; the kernel
  contracts every node's row against the 32 stacked weight rows once (the projected table below) and gathers the
  16-wide halves of that table afterwards. A row gather commutes with a contraction over the other axis, so the two
  agree term by term: no law of the extended reals beyond reading both sides at an index is needed.
-/
import Idealize.ShloMosaic.PureOps.Ideal
import Idealize.ShloMosaic.Lib.ValueIdx
import Idealize.ShloMosaic.Lib.Affine
import proofs.«416451_j89953795047574_3_alg».proof.Proof.LibRowGather

noncomputable section

open scoped BigOperators

namespace Cert.EdgeScore

open Idealize.ShloMosaic Idealize.ShloMosaic.ValueIdx Idealize.ShloMosaic.RowGather

/-- Column `k` of the weight's first half. -/
def lo (k : Fin 128) : Fin 256 := ⟨k.val, by have := k.isLt; omega⟩
/-- Column `k` of the weight's second half. -/
def hi (k : Fin 128) : Fin 256 := ⟨128 + k.val, by have := k.isLt; omega⟩

/-- Node `n`'s row against row `o` of the weight's first half. -/
def projLo (h : (⟨2, ![100000, 128]⟩ : Shape).Idx → EReal) (W : (⟨2, ![16, 256]⟩ : Shape).Idx → EReal)
    (n : Fin 100000) (o : Fin 16) : EReal :=
  ∑ k : Fin 128, h (ix2 n k) * W (ix2 o (lo k))

/-- Node `n`'s row against row `o` of the weight's second half. -/
def projHi (h : (⟨2, ![100000, 128]⟩ : Shape).Idx → EReal) (W : (⟨2, ![16, 256]⟩ : Shape).Idx → EReal)
    (n : Fin 100000) (o : Fin 16) : EReal :=
  ∑ k : Fin 128, h (ix2 n k) * W (ix2 o (hi k))

/-- The row a gather over the 100000 nodes reads for a start index. -/
abbrev row (i : BitVec 32) : Fin 100000 := clampRow 100000 (by decide) i

/-- The edge score at an index. -/
def score (h : (⟨2, ![100000, 128]⟩ : Shape).Idx → EReal) (src dst : (⟨1, ![640000]⟩ : Shape).Idx → BitVec 32)
    (W : (⟨2, ![16, 256]⟩ : Shape).Idx → EReal) (b : (⟨1, ![16]⟩ : Shape).Idx → EReal) :
    (⟨2, ![640000, 16]⟩ : Shape).Idx → EReal :=
  fun i => projLo h W (row (src (ix1 (i 0)))) (i 1) + projHi h W (row (dst (ix1 (i 0)))) (i 1) + b (ix1 (i 1))

theorem score_apply (h : (⟨2, ![100000, 128]⟩ : Shape).Idx → EReal) (src dst : (⟨1, ![640000]⟩ : Shape).Idx → BitVec 32)
    (W : (⟨2, ![16, 256]⟩ : Shape).Idx → EReal) (b : (⟨1, ![16]⟩ : Shape).Idx → EReal) (e : Fin 640000) (o : Fin 16) :
    score h src dst W b (ix2 e o)
      = projLo h W (row (src (ix1 e))) o + projHi h W (row (dst (ix1 e))) o + b (ix1 o) := rfl

/-- The projected table [100000, 32]: node `n` against the 32 stacked weight rows, the first half's 16 then the
    second half's 16. -/
def table (h : (⟨2, ![100000, 128]⟩ : Shape).Idx → EReal) (W : (⟨2, ![16, 256]⟩ : Shape).Idx → EReal) :
    (⟨2, ![100000, 32]⟩ : Shape).Idx → EReal :=
  fun j => if hj : (j 1).val < 16 then projLo h W (j 0) ⟨(j 1).val, hj⟩
    else projHi h W (j 0) ⟨(j 1).val - 16, by have := (j 1).isLt; have : (j 1).val < 32 := this; omega⟩

/-- A non-negative node number is not moved by the wrap-around of negative indices: `i < 0 ? i + n : i` is `i`. -/
theorem wrap_of_nonneg (i y : BitVec 32) (hi : IntOp.cmpi .sge i 0#32 = 1#1) :
    Scalar.select (IntOp.cmpi .slt i 0#32) y i = i := by
  have h0 := IntOp.cmpi_sge.1 hi
  have h1 : ¬ (IntOp.cmpi .slt i 0#32 = 1#1) := fun h => by
    have := IntOp.cmpi_slt.1 h; omega
  exact if_neg h1

end Cert.EdgeScore

end
-- ==== Proof.RefScore.lean ====
/-
  The reference computes the edge score. Its run's term, one operation at a time: the index column is the
  wrapped node numbers (unmoved when they are non-negative), the two gathers read whole 128-wide rows of the node table
  at the clamped node numbers, each contraction is the sum over the 128 features of a gathered row against a row of one
  half of the weight, and the bias is broadcast along the edges.
-/
import proofs.«416451_j89953795047574_3_alg».proof.Proof.Gen.ReferenceIdeal.Read
import proofs.«416451_j89953795047574_3_alg».proof.Proof.EdgeScore

noncomputable section

open scoped BigOperators

namespace Cert.EdgeScore.Ref

open Idealize.ShloMosaic Idealize.ShloMosaic.ValueIdx Idealize.ShloMosaic.RowGather
open Cert.ReferenceIdeal Cert.ReferenceIdeal.Gen Cert.ReferenceIdeal.Read Cert.EdgeScore

/-- The source gather's start column at edge `p` is the source node number itself. -/
theorem start_src (x1 : (⟨S640000, .i32⟩ : BufTy).Contents (Elt Ideal))
    (h1 : ∀ e : S640000.Idx, IntOp.cmpi .sge (x1 e) 0#32 = 1#1) (p : Fin 640000) :
    val_main_v5 (F := Ideal) x1 (ix2 p (0 : Fin 1)) = x1 (ix1 p) := by
  rw [val_main_v5_apply, val_main_v4_apply, val_main_v1_apply, val_main_v0_apply, val_main_c_apply]
  have e : idx_main_v5 (ix2 p (0 : Fin 1)) = ix1 p := funext fun a => by match a with | ⟨0, _⟩ => rfl
  rw [e]
  exact wrap_of_nonneg _ _ (h1 _)

/-- The destination gather's start column at edge `p` is the destination node number itself. -/
theorem start_dst (x2 : (⟨S640000, .i32⟩ : BufTy).Contents (Elt Ideal))
    (h2 : ∀ e : S640000.Idx, IntOp.cmpi .sge (x2 e) 0#32 = 1#1) (p : Fin 640000) :
    val_main_v12 (F := Ideal) x2 (ix2 p (0 : Fin 1)) = x2 (ix1 p) := by
  rw [val_main_v12_apply, val_main_v11_apply, val_main_v8_apply, val_main_v7_apply, val_main_c_1_apply]
  have e : idx_main_v12 (ix2 p (0 : Fin 1)) = ix1 p := funext fun a => by match a with | ⟨0, _⟩ => rfl
  rw [e]
  exact wrap_of_nonneg _ _ (h2 _)

/-- The gathered source rows: edge `p`, feature `k` is the node table at the source's row. -/
theorem rows_src (x0 : (⟨S100000x128, .f32⟩ : BufTy).Contents (Elt Ideal)) (x1 : (⟨S640000, .i32⟩ : BufTy).Contents (Elt Ideal))
    (h1 : ∀ e : S640000.Idx, IntOp.cmpi .sge (x1 e) 0#32 = 1#1) (p : Fin 640000) (k : Fin 128) :
    val_main_v6 (F := Ideal) x0 x1 (ix2 p k) = x0 (ix2 (row (x1 (ix1 p))) k) := by
  unfold val_main_v6
  rw [gather_rows_apply _ rfl rfl rfl rfl rfl x0 _ p k (by decide), start_src x1 h1 p]

/-- The gathered destination rows. -/
theorem rows_dst (x0 : (⟨S100000x128, .f32⟩ : BufTy).Contents (Elt Ideal)) (x2 : (⟨S640000, .i32⟩ : BufTy).Contents (Elt Ideal))
    (h2 : ∀ e : S640000.Idx, IntOp.cmpi .sge (x2 e) 0#32 = 1#1) (p : Fin 640000) (k : Fin 128) :
    val_main_v13 (F := Ideal) x0 x2 (ix2 p k) = x0 (ix2 (row (x2 (ix1 p))) k) := by
  unfold val_main_v13
  rw [gather_rows_apply _ rfl rfl rfl rfl rfl x0 _ p k (by decide), start_dst x2 h2 p]

/-- THE REFERENCE IS THE EDGE SCORE, when every node number is non-negative. -/
theorem ref_eq (x0 : (⟨S100000x128, .f32⟩ : BufTy).Contents (Elt Ideal)) (x1 x2 : (⟨S640000, .i32⟩ : BufTy).Contents (Elt Ideal))
    (x3 : (⟨S16x256, .f32⟩ : BufTy).Contents (Elt Ideal)) (x4 : (⟨S16, .f32⟩ : BufTy).Contents (Elt Ideal))
    (h1 : ∀ e : S640000.Idx, IntOp.cmpi .sge (x1 e) 0#32 = 1#1) (h2 : ∀ e : S640000.Idx, IntOp.cmpi .sge (x2 e) 0#32 = 1#1) :
    val_main_v21 (F := Ideal) x0 x1 x2 x3 x4 = score x0 x1 x2 x3 x4 := by
  funext i
  obtain ⟨p, q, rfl⟩ : ∃ (p : Fin 640000) (q : Fin 16), i = ix2 p q := ⟨i 0, i 1, eq_ix2 i⟩
  rw [val_main_v21_apply, val_main_v18_apply, val_main_v16_apply, val_main_v17_apply, val_main_v20_apply,
    val_main_v19_apply, score_apply]
  have el16 : ∀ k : Fin 128, lidx_main_v16 (ix2 p q) k = ix2 p k := fun k => funext fun a => by
    match a with | ⟨0, _⟩ => rfl | ⟨1, _⟩ => rfl
  have el17 : ∀ k : Fin 128, lidx_main_v17 (ix2 p q) k = ix2 p k := fun k => funext fun a => by
    match a with | ⟨0, _⟩ => rfl | ⟨1, _⟩ => rfl
  have er16 : ∀ k : Fin 128, idx_main_v14 (ridx_main_v16 (ix2 p q) k) = ix2 q (lo k) := fun k => funext fun a => by
    match a with | ⟨0, _⟩ => rfl | ⟨1, _⟩ => rfl
  have er17 : ∀ k : Fin 128, idx_main_v15 (ridx_main_v17 (ix2 p q) k) = ix2 q (hi k) := fun k => funext fun a => by
    match a with | ⟨0, _⟩ => rfl | ⟨1, _⟩ => rfl
  have eb : idx_main_v19 (idx_main_v20 (ix2 p q)) = ix1 q := funext fun a => by match a with | ⟨0, _⟩ => rfl
  simp only [el16, el17, rows_src x0 x1 h1, rows_dst x0 x2 h2, val_main_v14_apply, val_main_v15_apply, er16, er17, eb,
    Ideal.addf_def]
  rfl

end Cert.EdgeScore.Ref

end
-- ==== Proof.ProjPayload.lean ====
/-
  What the kernel body stores, read at an index. The body loads a [10000, 128] block of the node table and the whole
  [128, 32] stacked weight, narrows both (the identity on the extended reals), multiplies them into a zero accumulator
  and narrows again: entry (p, q) of the stored block is the sum over the 128 features k of block[p, k] · weight[k, q].
-/
import proofs.«416451_j89953795047574_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.EdgeScore.Kern

open Idealize.ShloMosaic Idealize.ShloMosaic.ValueIdx Cert.KernelIdeal Cert.KernelIdeal.Gen

/-- The left operand's row is the output's row, -/
theorem lhs_proj_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- its column the contraction position; -/
theorem lhs_proj_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
/-- the right operand's row is the contraction position, -/
theorem rhs_proj_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
/-- its column the output's column. -/
theorem rhs_proj_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The product into the zero accumulator at (p, q): the sum over the features. -/
theorem matmul_zero_apply (a : FVec Ideal S10000x128 .bf16) (w : FVec Ideal S128x32 .bf16) (p : Fin 10000) (q : Fin 32) :
    FloatOps.matmul dot_S10000x128_S128x32_S10000x32_1_0_0_1_n_n none a w (constant S10000x32 .f32 0x00000000#32) (ix2 p q)
      = ∑ k : Fin 128, a (ix2 p k) * w (ix2 k q) := by
  rw [Ideal.matmul_constant_zero_apply, ← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ix2 p q) ((ValueIdx.contrEquiv1 dot_S10000x128_S128x32_S10000x32_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S10000x128_S128x32_S10000x32_1_0_0_1_n_n.rhsIdx (ix2 p q) ((ValueIdx.contrEquiv1 dot_S10000x128_S128x32_S10000x32_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-- THE STORED BLOCK AT (p, q). -/
theorem pay_apply (x0 : Vec Ideal S10000x128 .f32) (x1 : Vec Ideal S128x32 .bf16) (p : Fin 10000) (q : Fin 32) :
    k0_pay1 (F := Ideal) x0 x1 (ix2 p q) = ∑ k : Fin 128, x0 (ix2 p k) * x1 (ix2 k q) := by
  have hsc : shapeCast S128x32 x1 shapeCasts_S128x32_S128x32 = x1 := shapeCast_self x1 _
  unfold k0_pay1
  refine (matmul_zero_apply (truncf .bf16 x0 bitsLt_bf16_f32) (shapeCast S128x32 x1 shapeCasts_S128x32_S128x32) p q).trans ?_
  rw [hsc]
  rfl

end Cert.EdgeScore.Kern

end
-- ==== Proof.ProjTable.lean ====
/-
  From the stored blocks to the whole projected array. Grid point t stages rows [10000 t, 10000 t + 10000) of the node
  table and the whole stacked weight, and writes back the same rows of the output [100000, 32]; the ten blocks tile
  the output. So after the region the output array is, entry by entry, the product of the node array with the
  stacked-weight array: out[n, q] = Σ_k node[n, k] · stacked[k, q].
-/
import proofs.«416451_j89953795047574_3_alg».proof.Proof.Gen.KernelIdeal.Frame
import proofs.«416451_j89953795047574_3_alg».proof.Proof.ProjPayload
import Idealize.ShloMosaic.Lib.Pipeline.Value

set_option maxRecDepth 16384

noncomputable section

open scoped BigOperators

namespace Cert.EdgeScore.Kern

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zero_off : (![0, 0] : Fin 2 → Nat) = fun _ => 0 := funext fun a => by fin_cases a <;> rfl

/-- The product of a node array [100000, 128] with a stacked-weight array [128, 32]. -/
def prod (a0 : S100000x128.Idx → EReal) (a1 : S128x32.Idx → EReal) : S100000x32.Idx → EReal :=
  fun i => ∑ k : Fin 128, a0 (ix2 (i 0) k) * a1 (ix2 k (i 1))

/-- The stored block at an index of the block, over variables of the literal types. -/
theorem pay_block (x0 : Vec Ideal S10000x128 .f32) (x1 : Vec Ideal S128x32 .bf16) (j : S10000x32.Idx) :
    k0_pay1 (F := Ideal) x0 x1 j = ∑ k : Fin 128, x0 (ix2 (j 0) k) * x1 (ix2 k (j 1)) := by
  exact (congrArg (k0_pay1 (F := Ideal) x0 x1) (eq_ix2 j)).trans (pay_apply x0 x1 (j 0) (j 1))

/-- The node array as the region finds it, at its literal type. -/
abbrev nodeArr (c : Dev nD) : S100000x128.Idx → EReal := V m c main_arg0
/-- The stacked-weight array as the region finds it, at its literal type. -/
abbrev stackArr (c : Dev nD) : S128x32.Idx → EReal := V m c main_v5

/-- The printed index maps, decided over the grid: the node window moves with the output window along the rows, every
    other block index is zero, and the output's row-block index is below ten. -/
theorem block_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem block_onto : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of the product of the two arrays as the region finds them. -/
theorem flushed_eq (c : Dev nD) (t : Fin cfg0.N) :
    (dats m 0 c).flushed 2 t = ((cfg0.win 2).blk t).view.read (Elt Ideal) (prod (nodeArr m c) (stackArr m c)) := by
  show (cfg0.win 2).cut (grid0.coords t) ((dats m 0 c).after 2 t) = _
  rw [after0_2]
  unfold out0_2
  rw [View.canon_unit_zero zero_off]
  simp only [View.ld_unit_zero (S := S10000x128) zero_off, View.ld_unit_zero (S := S128x32) zero_off]
  obtain ⟨e0, e1, e2, e3, e4, e5⟩ := block_facts t
  funext j
  show k0_pay1 (F := Ideal) (iblk m c 0 t) (iblk m c 1 t) j = prod (nodeArr m c) (stackArr m c) (((cfg0.win 2).blk t).view.emb j)
  refine (pay_block (iblk m c 0 t) (iblk m c 1 t) j).trans ?_
  unfold prod
  refine Finset.sum_congr rfl fun k _ => ?_
  show nodeArr m c (((cfg0.win 0).blk t).view.emb (ix2 (j 0) k)) * stackArr m c (((cfg0.win 1).blk t).view.emb (ix2 k (j 1)))
    = nodeArr m c (ix2 ((((cfg0.win 2).blk t).view.emb j) 0) k) * stackArr m c (ix2 k ((((cfg0.win 2).blk t).view.emb j) 1))
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 32 + 1 * (j 1).val = win0_2.index t (1 : Fin 2) * 32 + 1 * (j 1).val; omega
  exact congrArg₂ (· * ·) (congrArg (nodeArr m c) h0) (congrArg (stackArr m c) h1)

/-- An index of the output is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v6).slice (win0_2.rect t)).set ↔ _
  rw [View.set_slice_whole, Rect.mem_set_unit]
  exact Iff.rfl

/-- The ten row blocks cover the output: row r is in block r / 10000. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- THE OUTPUT ARRAY after the region: the product of the node array and the stacked-weight array. -/
theorem final (c : Dev nD) : (dats m 0 c).arrAt 2 cfg0.N = prod (nodeArr m c) (stackArr m c) :=
  (dats m 0 c).arrAt_eq_of_cover 2 (prod (nodeArr m c) (stackArr m c)) (fun t _ => flushed_eq m c t) covered

end Cert.EdgeScore.Kern

end
-- ==== Proof.Stacked.lean ====
/-
  The stacked weight. Before the region the program cuts the weight [16, 256] into its two halves [16, 128], transposes
  each to [128, 16], lays them side by side as [128, 32] and narrows the result (the identity on the extended reals):
  entry (k, q) is W[q, k] for q < 16 and W[q − 16, 128 + k] for q ≥ 16. This is the array the region's second
  window stages.
-/
import proofs.«416451_j89953795047574_3_alg».proof.Proof.Gen.KernelIdeal.Frame
import proofs.«416451_j89953795047574_3_alg».proof.Proof.EdgeScore
import Idealize.ShloMosaic.Lib.Pipeline.Value
import Idealize.ShloMosaic.Lib.StableHlo.Run

noncomputable section

namespace Cert.EdgeScore.Kern

open Idealize.ShloMosaic Idealize.ShloMosaic.TcCoe Idealize.ShloMosaic.ValueIdx Idealize.SL.Sem
open Cert.KernelIdeal Cert.KernelIdeal.Gen Cert.EdgeScore

/-- The two transposed halves side by side, read at (k, q). -/
theorem stack_apply {α : Type} (W : S16x256.Idx → α) (k : Fin 128) (q : Fin 32) :
    concatenate S128x32 1
        [⟨S128x16, transpose S128x16 [1, 0] (extractStridedSlice S16x128 ![0, 0] W slices_S16x256_S16x128_0_0) transposes_S16x128_S128x16_1_0⟩,
         ⟨S128x16, transpose S128x16 [1, 0] (extractStridedSlice S16x128 ![0, 128] W slices_S16x256_S16x128_0_128) transposes_S16x128_S128x16_1_0⟩]
        concatenates_S128x16_S128x16_S128x32_d1 (ix2 k q)
      = if hq : q.val < 16 then W (ix2 (⟨q.val, hq⟩ : Fin 16) (lo k))
        else W (ix2 (⟨q.val - 16, by have := q.isLt; omega⟩ : Fin 16) (hi k)) := by
  by_cases hq : q.val < 16
  · rw [dif_pos hq]
    refine (concatenate_pair_apply_left (t := S128x32) (s₁ := S128x16) (s₂ := S128x16) 1 _ _ _ (ix2 k q) rfl (ix2 k (⟨q.val, hq⟩ : Fin 16)) (fun b => by
      match b with | ⟨0, _⟩ => rfl | ⟨1, _⟩ => rfl)).trans ?_
    refine (transpose_apply [1, 0] _ _ (ix2 k (⟨q.val, hq⟩ : Fin 16)) (ix2 (⟨q.val, hq⟩ : Fin 16) k) (fun b => by
      match b with | ⟨0, _⟩ => rfl | ⟨1, _⟩ => rfl)).trans ?_
    exact extractStridedSlice_apply ![0, 0] W _ (ix2 (⟨q.val, hq⟩ : Fin 16) k) (ix2 (⟨q.val, hq⟩ : Fin 16) (lo k)) (fun a => by
      match a with
      | ⟨0, _⟩ => show q.val = 0 + q.val; omega
      | ⟨1, _⟩ => show k.val = 0 + k.val; omega)
  · rw [dif_neg hq]
    have hq' : q.val - 16 < 16 := by have := q.isLt; omega
    refine (concatenate_pair_apply_right (t := S128x32) (s₁ := S128x16) (s₂ := S128x16) 1 _ _ _ (ix2 k q) rfl rfl (ix2 k (⟨q.val - 16, hq'⟩ : Fin 16)) (fun b hb => by
      match b, hb with
      | ⟨0, _⟩, _ => rfl
      | ⟨1, _⟩, hb => exact absurd rfl hb) (by show q.val - 16 + 16 = q.val; omega)).trans ?_
    refine (transpose_apply [1, 0] _ _ (ix2 k (⟨q.val - 16, hq'⟩ : Fin 16)) (ix2 (⟨q.val - 16, hq'⟩ : Fin 16) k) (fun b => by
      match b with | ⟨0, _⟩ => rfl | ⟨1, _⟩ => rfl)).trans ?_
    exact extractStridedSlice_apply ![0, 128] W _ (ix2 (⟨q.val - 16, hq'⟩ : Fin 16) k) (ix2 (⟨q.val - 16, hq'⟩ : Fin 16) (hi k)) (fun a => by
      match a with
      | ⟨0, _⟩ => show q.val - 16 = 0 + (q.val - 16); omega
      | ⟨1, _⟩ => show 128 + k.val = 128 + k.val; rfl)

/-- Column o < 16 of the stacked weight at row k is W[o, k]. -/
theorem stack_lo {α : Type} (W : S16x256.Idx → α) (k : Fin 128) (o : Fin 16) :
    concatenate S128x32 1
        [⟨S128x16, transpose S128x16 [1, 0] (extractStridedSlice S16x128 ![0, 0] W slices_S16x256_S16x128_0_0) transposes_S16x128_S128x16_1_0⟩,
         ⟨S128x16, transpose S128x16 [1, 0] (extractStridedSlice S16x128 ![0, 128] W slices_S16x256_S16x128_0_128) transposes_S16x128_S128x16_1_0⟩]
        concatenates_S128x16_S128x16_S128x32_d1 (ix2 k (⟨o.val, by have := o.isLt; omega⟩ : Fin 32))
      = W (ix2 o (lo k)) := by
  rw [stack_apply, dif_pos (show o.val < 16 from o.isLt)]

/-- Column 16 + o of the stacked weight at row k is W[o, 128 + k]. -/
theorem stack_hi {α : Type} (W : S16x256.Idx → α) (k : Fin 128) (o : Fin 16) :
    concatenate S128x32 1
        [⟨S128x16, transpose S128x16 [1, 0] (extractStridedSlice S16x128 ![0, 0] W slices_S16x256_S16x128_0_0) transposes_S16x128_S128x16_1_0⟩,
         ⟨S128x16, transpose S128x16 [1, 0] (extractStridedSlice S16x128 ![0, 128] W slices_S16x256_S16x128_0_128) transposes_S16x128_S128x16_1_0⟩]
        concatenates_S128x16_S128x16_S128x32_d1 (ix2 k (⟨16 + o.val, by have := o.isLt; omega⟩ : Fin 32))
      = W (ix2 o (hi k)) := by
  rw [stack_apply, dif_neg (show ¬ (16 + o.val < 16) by omega)]
  exact congrArg (fun a : Fin 16 => W (ix2 a (hi k))) (Fin.ext (by show 16 + o.val - 16 = o.val; omega))

variable {F : FTy → Type} [FloatOps F]
variable (m : (ℓ : Loc nD τ sig) → Buf (Elt F) ℓ)

/-- The second window's array as the region finds it: the operations before the region applied to the weight. -/
theorem stacked_eq (c : Dev nD) :
    V m c main_v5 = truncf .bf16 (concatenate S128x32 1
        [⟨S128x16, transpose S128x16 [1, 0] (extractStridedSlice S16x128 ![0, 0] (m ((c.tc : Thread nD τ).loc main_arg3)) slices_S16x256_S16x128_0_0) transposes_S16x128_S128x16_1_0⟩,
         ⟨S128x16, transpose S128x16 [1, 0] (extractStridedSlice S16x128 ![0, 128] (m ((c.tc : Thread nD τ).loc main_arg3)) slices_S16x256_S16x128_0_128) transposes_S16x128_S128x16_1_0⟩]
        concatenates_S128x16_S128x16_S128x32_d1) bitsLt_bf16_f32 := by
  show StableHlo.after hostOps0 (fun b => m (c, b)) (Proc.devRef .tc main_v5) = _
  after_results

end Cert.EdgeScore.Kern

end
-- ==== Proof.Tail.lean ====
/-
  After the region. The program cuts the projected array [100000, 32] into its two halves [100000, 16], gathers the first
  half's rows at the source node numbers and the second half's rows at the destination node numbers, widens both
  (the identity on the extended reals), adds them and adds the bias broadcast along the edges. At edge e and output o:

      result[e, o] = P[row(src e), o] + P[row(dst e), 16 + o] + b[o].
-/
import proofs.«416451_j89953795047574_3_alg».proof.Proof.Gen.KernelIdeal.Frame
import proofs.«416451_j89953795047574_3_alg».proof.Proof.EdgeScore
import Idealize.ShloMosaic.Lib.Pipeline.Value
import Idealize.ShloMosaic.Lib.StableHlo.Run
import Idealize.ShloMosaic.PureOps.Ideal

noncomputable section

namespace Cert.EdgeScore.Kern

open Idealize.ShloMosaic Idealize.ShloMosaic.TcCoe Idealize.ShloMosaic.ValueIdx Idealize.ShloMosaic.RowGather Idealize.SL.Sem
open Cert.KernelIdeal Cert.KernelIdeal.Gen Cert.EdgeScore

/-- The operations after the region, as one function of the projected array, the two index arrays and the bias. -/
def tail (P : S100000x32.Idx → EReal) (src dst : IVec S640000 32) (b : S16.Idx → EReal) : S640000x16.Idx → EReal :=
  addf (F := Ideal) (φ := .f32)
    (addf (F := Ideal) (φ := .f32)
      (extf (F := Ideal) (φ := .bf16) .f32
        (Host.gather gather_S100000x16_S640000x1_S640000x16_1_0_n_n_0_1_116
          (extractStridedSlice S100000x16 ![0, 0] P slices_S100000x32_S100000x16_0_0)
          (broadcastInDim S640000x1 ![0] bcast_S640000_S640000x1_0 src)) bitsLt_bf16_f32)
      (extf (F := Ideal) (φ := .bf16) .f32
        (Host.gather gather_S100000x16_S640000x1_S640000x16_1_0_n_n_0_1_116
          (extractStridedSlice S100000x16 ![0, 16] P slices_S100000x32_S100000x16_0_16)
          (broadcastInDim S640000x1 ![0] bcast_S640000_S640000x1_0 dst)) bitsLt_bf16_f32))
    (broadcastInDim S640000x16 ![0, 1] bcast_S1x16_S640000x16_0_1 (broadcastInDim S1x16 ![1] bcast_S16_S1x16_1 b))

/-- The index column of a node-number array at edge `e` is the node number. -/
theorem column_apply (x : IVec S640000 32) (e : Fin 640000) :
    broadcastInDim S640000x1 ![0] bcast_S640000_S640000x1_0 x (ix2 e (0 : Fin 1)) = x (ix1 e) :=
  broadcastInDim_apply _ bcast_S640000_S640000x1_0 x (ix2 e (0 : Fin 1)) (ix1 e) (fun a => match a with
    | ⟨0, _⟩ => by show e.val = if (640000 : Nat) = 1 then 0 else e.val; rw [if_neg (by decide)])

/-- The bias broadcast along the edges, at (e, o), is b[o]. -/
theorem bias_apply {α : Type} (b : S16.Idx → α) (e : Fin 640000) (o : Fin 16) :
    broadcastInDim S640000x16 ![0, 1] bcast_S1x16_S640000x16_0_1 (broadcastInDim S1x16 ![1] bcast_S16_S1x16_1 b) (ix2 e o) = b (ix1 o) := by
  refine (broadcastInDim_apply _ bcast_S1x16_S640000x16_0_1 _ (ix2 e o) (ix2 (0 : Fin 1) o) (fun a => match a with
    | ⟨0, _⟩ => by show 0 = if (1 : Nat) = 1 then 0 else e.val; rw [if_pos rfl]
    | ⟨1, _⟩ => by show o.val = if (16 : Nat) = 1 then 0 else o.val; rw [if_neg (by decide)])).trans ?_
  exact broadcastInDim_apply _ bcast_S16_S1x16_1 b (ix2 (0 : Fin 1) o) (ix1 o) (fun a => match a with
    | ⟨0, _⟩ => by show o.val = if (16 : Nat) = 1 then 0 else o.val; rw [if_neg (by decide)])

/-- Column o of the projected array's first half is its column o. -/
theorem half_lo_apply {α : Type} (P : S100000x32.Idx → α) (n : Fin 100000) (o : Fin 16) :
    extractStridedSlice S100000x16 ![0, 0] P slices_S100000x32_S100000x16_0_0 (ix2 n o)
      = P (ix2 n (⟨o.val, by have := o.isLt; omega⟩ : Fin 32)) :=
  extractStridedSlice_apply ![0, 0] P _ (ix2 n o) (ix2 n (⟨o.val, by have := o.isLt; omega⟩ : Fin 32)) (fun a => by
    match a with
    | ⟨0, _⟩ => show n.val = 0 + n.val; omega
    | ⟨1, _⟩ => show o.val = 0 + o.val; omega)

/-- Column o of the projected array's second half is its column 16 + o. -/
theorem half_hi_apply {α : Type} (P : S100000x32.Idx → α) (n : Fin 100000) (o : Fin 16) :
    extractStridedSlice S100000x16 ![0, 16] P slices_S100000x32_S100000x16_0_16 (ix2 n o)
      = P (ix2 n (⟨16 + o.val, by have := o.isLt; omega⟩ : Fin 32)) :=
  extractStridedSlice_apply ![0, 16] P _ (ix2 n o) (ix2 n (⟨16 + o.val, by have := o.isLt; omega⟩ : Fin 32)) (fun a => by
    match a with
    | ⟨0, _⟩ => show n.val = 0 + n.val; omega
    | ⟨1, _⟩ => show 16 + o.val = 16 + o.val; rfl)

/-- THE RESULT AT (e, o), from the projected array. -/
theorem tail_apply (P : S100000x32.Idx → EReal) (src dst : IVec S640000 32) (b : S16.Idx → EReal) (e : Fin 640000) (o : Fin 16) :
    tail P src dst b (ix2 e o)
      = P (ix2 (row (src (ix1 e))) (⟨o.val, by have := o.isLt; omega⟩ : Fin 32))
        + P (ix2 (row (dst (ix1 e))) (⟨16 + o.val, by have := o.isLt; omega⟩ : Fin 32)) + b (ix1 o) := by
  unfold tail
  show Host.gather gather_S100000x16_S640000x1_S640000x16_1_0_n_n_0_1_116
          (extractStridedSlice S100000x16 ![0, 0] P slices_S100000x32_S100000x16_0_0)
          (broadcastInDim S640000x1 ![0] bcast_S640000_S640000x1_0 src) (ix2 e o)
      + Host.gather gather_S100000x16_S640000x1_S640000x16_1_0_n_n_0_1_116
          (extractStridedSlice S100000x16 ![0, 16] P slices_S100000x32_S100000x16_0_16)
          (broadcastInDim S640000x1 ![0] bcast_S640000_S640000x1_0 dst) (ix2 e o)
      + broadcastInDim S640000x16 ![0, 1] bcast_S1x16_S640000x16_0_1 (broadcastInDim S1x16 ![1] bcast_S16_S1x16_1 b) (ix2 e o) = _
  rw [gather_rows_apply _ rfl rfl rfl rfl rfl (extractStridedSlice S100000x16 ![0, 0] P slices_S100000x32_S100000x16_0_0) _ e o (by decide),
    gather_rows_apply _ rfl rfl rfl rfl rfl (extractStridedSlice S100000x16 ![0, 16] P slices_S100000x32_S100000x16_0_16) _ e o (by decide),
    column_apply src e, column_apply dst e, half_lo_apply, half_hi_apply, bias_apply]

variable (m : (ℓ : Loc nD τ sig) → Buf (Elt Ideal) ℓ)

/-- The program's result buffer after the lines that follow the region: those operations applied to the output array
    the region leaves and to the argument arrays as launched. -/
theorem tail_eq (c : Dev nD) :
    Pipeline.afterTail₀ cfgs (dats m) 0 (V0 m) [hostOps1, hostOps1_1, hostOps1_2, hostOps1_3] c main_v16
      = tail ((dats m 0 c).arrAt 2 cfg0.N) (m ((c.tc : Thread nD τ).loc main_arg1)) (m ((c.tc : Thread nD τ).loc main_arg2))
          (m ((c.tc : Thread nD τ).loc main_arg4)) := by
  have e6 : Pipeline.withArrays (cfgs 0).spec c (V0 m c) (fun w => (dats m 0 c).arrAt w (cfgs 0).N) (Proc.devRef .tc main_v6)
      = (dats m 0 c).arrAt 2 cfg0.N := Pipeline.withArrays_arr spec0 launch0.win.arr_inj c _ _ 2
  have e1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  have e2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have e4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  rw [← e6, ← e1, ← e2, ← e4]
  unfold Pipeline.afterTail₀ tail
  simp only [hostOps1, hostOps1_1, hostOps1_2, hostOps1_3, List.flatten_cons, List.flatten_nil, List.append_nil, List.cons_append, List.nil_append]
  after_results
  rfl

end Cert.EdgeScore.Kern

end
-- ==== Proof.KernScore.lean ====
/-
  The kernel computes the edge score. The region leaves the product of the node table with the stacked weight; column
  o < 16 of that product at node n is n's row against row o of the weight's first half, column 16 + o its row against
  row o of the second half. The lines after the region gather those columns at the clamped source and destination
  node numbers and add the bias: the score, term by term.
-/
import proofs.«416451_j89953795047574_3_alg».proof.Proof.ProjTable
import proofs.«416451_j89953795047574_3_alg».proof.Proof.Stacked
import proofs.«416451_j89953795047574_3_alg».proof.Proof.Tail

noncomputable section

open scoped BigOperators

namespace Cert.EdgeScore.Kern

open Idealize.ShloMosaic Idealize.ShloMosaic.TcCoe Idealize.ShloMosaic.ValueIdx Idealize.ShloMosaic.RowGather Idealize.SL.Sem
open Cert.KernelIdeal Cert.KernelIdeal.Gen Cert.EdgeScore

/-- The weight laid out as the region's second window finds it. -/
def stacked (W : S16x256.Idx → EReal) : S128x32.Idx → EReal :=
  truncf (F := Ideal) (φ := .f32) .bf16 (concatenate S128x32 1
    [⟨S128x16, transpose S128x16 [1, 0] (extractStridedSlice S16x128 ![0, 0] W slices_S16x256_S16x128_0_0) transposes_S16x128_S128x16_1_0⟩,
     ⟨S128x16, transpose S128x16 [1, 0] (extractStridedSlice S16x128 ![0, 128] W slices_S16x256_S16x128_0_128) transposes_S16x128_S128x16_1_0⟩]
    concatenates_S128x16_S128x16_S128x32_d1) bitsLt_bf16_f32

/-- Column o of the product is the node's row against row o of the weight's first half. -/
theorem prod_lo (h : S100000x128.Idx → EReal) (W : S16x256.Idx → EReal) (n : Fin 100000) (o : Fin 16) :
    prod h (stacked W) (ix2 n (⟨o.val, by have := o.isLt; omega⟩ : Fin 32)) = projLo h W n o := by
  unfold prod projLo
  refine Finset.sum_congr rfl fun k _ => ?_
  exact congrArg (h (ix2 n k) * ·) (stack_lo W k o)

/-- Column 16 + o of the product is the node's row against row o of the weight's second half. -/
theorem prod_hi (h : S100000x128.Idx → EReal) (W : S16x256.Idx → EReal) (n : Fin 100000) (o : Fin 16) :
    prod h (stacked W) (ix2 n (⟨16 + o.val, by have := o.isLt; omega⟩ : Fin 32)) = projHi h W n o := by
  unfold prod projHi
  refine Finset.sum_congr rfl fun k _ => ?_
  exact congrArg (h (ix2 n k) * ·) (stack_hi W k o)

variable (m : (ℓ : Loc nD τ sig) → Buf (Elt Ideal) ℓ)

/-- THE KERNEL'S RESULT IS THE EDGE SCORE of the argument arrays as launched. -/
theorem kern_eq (c : Dev nD) :
    tail ((dats m 0 c).arrAt 2 cfg0.N) (m ((c.tc : Thread nD τ).loc main_arg1)) (m ((c.tc : Thread nD τ).loc main_arg2))
        (m ((c.tc : Thread nD τ).loc main_arg4))
      = score (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have hn : nodeArr m c = m ((c.tc : Thread nD τ).loc main_arg0) := V_main_arg0 m c
  have hs : stackArr m c = stacked (m ((c.tc : Thread nD τ).loc main_arg3)) := stacked_eq m c
  funext i
  obtain ⟨e, o, rfl⟩ : ∃ (e : Fin 640000) (o : Fin 16), i = ix2 e o := ⟨i 0, i 1, eq_ix2 i⟩
  rw [tail_apply, score_apply, final m c, hn, hs, prod_lo, prod_hi]

end Cert.EdgeScore.Kern

end
-- ==== Proof.lean ====
/-
  Edge scores of a graph: a linear layer over the concatenated features of each edge's two end nodes.

  Both programs compute, for edge e and output o,

      score[e, o] = Σ_k h[row(src e), k] · W[o, k]  +  Σ_k h[row(dst e), k] · W[o, 128 + k]  +  b[o],

  with row(i) the node number i clamped into [0, 99999] (Proof/EdgeScore.lean). The reference gathers the two end
  nodes' 128-wide rows and contracts each against one half of the weight (Proof/RefScore.lean, over the generated
  run of the reference read one operation at a time). The kernel first multiplies the whole node table by the two
  halves of the weight stacked side by side — ten row blocks of 10000 nodes, each one matrix product (Proof/ProjPayload.lean,
  Proof/Stacked.lean, Proof/ProjTable.lean) — and then gathers 16-wide rows of the product (Proof/Tail.lean,
  Proof/KernScore.lean). A row gather commutes with a product over the columns, so the two agree index by index;
  narrowing to bf16 and widening back are the identity on the extended reals, and the sums are the same sums, so
  finiteness of the float inputs is never used.

  What IS used of the precondition: every node number is non-negative (Proof/Domain.lean). The reference reads a
  negative node number i as i + 100000 before it gathers, the kernel clamps it to row 0; on non-negative node numbers
  the wrap-around is the identity and the two gathers read the same row, including past the last row, where both clamp.

  The three frames are the generated ones (the reference's is its generated run with the result dropped); the
  idealization rewrote nothing, so `preserves` is trivial.
-/
import proofs.«416451_j89953795047574_3_alg».proof.Defs
import proofs.«416451_j89953795047574_3_alg».proof.Proof.Gen.Kernel
import proofs.«416451_j89953795047574_3_alg».proof.Proof.Gen.Kernel.Skeleton
import proofs.«416451_j89953795047574_3_alg».proof.Proof.Gen.Kernel.Launch
import proofs.«416451_j89953795047574_3_alg».proof.Proof.Gen.Kernel.Points
import proofs.«416451_j89953795047574_3_alg».proof.Proof.Gen.Kernel.Frame
import proofs.«416451_j89953795047574_3_alg».proof.Proof.Gen.KernelIdeal
import proofs.«416451_j89953795047574_3_alg».proof.Proof.Gen.KernelIdeal.Skeleton
import proofs.«416451_j89953795047574_3_alg».proof.Proof.Gen.KernelIdeal.Launch
import proofs.«416451_j89953795047574_3_alg».proof.Proof.Gen.KernelIdeal.Points
import proofs.«416451_j89953795047574_3_alg».proof.Proof.Gen.KernelIdeal.Frame
import proofs.«416451_j89953795047574_3_alg».proof.Proof.Gen.ReferenceIdeal
import proofs.«416451_j89953795047574_3_alg».proof.Proof.Gen.Pre_finite_inputs
import proofs.«416451_j89953795047574_3_alg».proof.Proof.Gen.ReferenceIdeal.Run
import proofs.«416451_j89953795047574_3_alg».proof.Proof.Gen.ReferenceIdeal.Read
import proofs.«416451_j89953795047574_3_alg».proof.Proof.Domain
import proofs.«416451_j89953795047574_3_alg».proof.Proof.RefScore
import proofs.«416451_j89953795047574_3_alg».proof.Proof.KernScore
import Idealize.ShloMosaic.Adequacy
import Idealize.ShloMosaic.Init

noncomputable section

namespace Cert.Proof

open Idealize.ShloMosaic Idealize.ShloMosaic.TcCoe Idealize.SL.Sem

/-! ## The kernel's run, with its result named -/

section KernelRun

open Cert.KernelIdeal Cert.KernelIdeal.Gen Cert.EdgeScore Cert.EdgeScore.Kern

/-- Every weakly fair execution of the idealized kernel ends with its result buffer at the edge score of the argument
    arrays as launched, and with the arguments unchanged: the frame run's post, the result read through the lines
    after the region. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
          = score (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v16 (Pipeline.mem_restRefs_of main_v16 (by decide) (by decide))).trans (tail_eq m c)).trans (kern_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the edge score of those arguments: the kernel by
    `kernel_run`; the reference by its generated run, whose term is the score when the node numbers are non-negative,
    which the precondition says. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.EdgeScore.nonneg_of_pre _ _ _ _ _ (hpre c)
  refine (Cert.ReferenceIdeal.Read.val_main_v21_eq (F := Ideal) _ _ _ _ _).trans ?_
  rw [(hagree c).1, (hagree c).2.1, (hagree c).2.2.1, (hagree c).2.2.2.1, (hagree c).2.2.2.2]
  exact Cert.EdgeScore.Ref.ref_eq _ _ _ _ _ h1 h2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
